-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x2048 : Shape := ⟨3, ![2048, 8, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S_ : Shape := ⟨0, ![]⟩

class Facts : Prop where
  bcast_S_S2048x8x2048 : S_.BroadcastsInDim S2048x8x2048 (![] : Fin 0 → Fin S2048x8x2048.rank)
  reducesTo_S2048x8x2048_S_d0_1_2 : S2048x8x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg9 : FVec F S2048x2048 .f32) (main_arg10 : FVec F S2048 .f32) (main_v33 : IVec S_ 1) : IVec S_ 1 :=
  let main_v34 : FVec F S2048x2048 .f32 := Host.absf main_arg9
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg10
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg6 : FVec F S2048 .f32) (main_arg7 : FVec F S2048x2048 .f32) (main_arg8 : FVec F S2048 .f32) (main_arg9 : FVec F S2048x2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg7
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg8
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg9 main_arg10 main_v33

def fn {F : FTy → Type} [FloatOps F] (main_arg0 : FVec F S2048x8x2048 .f32) (main_arg1 : FVec F S2048x8x2048 .f32) (main_arg2 : FVec F S2048x8x2048 .f32) (main_arg3 : IVec S8x2048 1) (main_arg4 : IVec S8 32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) : IVec S_ 1 :=
  let main_v0 : FVec F S2048x8x2048 .f32 := Host.absf main_arg0
  let main_cst : FVec F S_ .f32 := constant S_ .f32 0x7F800000#32
  let main_v1 : FVec F S2048x8x2048 .f32 := broadcastInDim S2048x8x2048 ![] bcast_S_S2048x8x2048 main_cst
  let main_v2 : IVec S2048x8x2048 1 := cmpf .olt main_v0 main_v1
  let main_c : IVec S_ 1 := constantI S_ 1 1#1
  let main_v3 : IVec S_ 1 := (fun x v => Host.reduce IntOp.andi x v reducesTo_S2048x8x2048_S_d0_1_2 h_S_) main_v2 main_c
  let main_v4 : FVec F S2048x8x2048 .f32 := Host.absf main_arg1
  let main_cst_0 : FVec F S_ .f32 := constant S_ .f32 0x7F800000#32
  let main_v5 : FVec F S2048x8x2048 .f32 := broadcastInDim S2048x8x2048 ![] bcast_S_S2048x8x2048 main_cst_0
  let main_v6 : IVec S2048x8x2048 1 := cmpf .olt main_v4 main_v5
  let main_c_1 : IVec S_ 1 := constantI S_ 1 1#1
  let main_v7 : IVec S_ 1 := (fun x v => Host.reduce IntOp.andi x v reducesTo_S2048x8x2048_S_d0_1_2 h_S_) main_v6 main_c_1
  let main_v8 : IVec S_ 1 := andi main_v3 main_v7
  let main_v9 : FVec F S2048x8x2048 .f32 := Host.absf main_arg2
  let main_cst_2 : FVec F S_ .f32 := constant S_ .f32 0x7F800000#32
  let main_v10 : FVec F S2048x8x2048 .f32 := broadcastInDim S2048x8x2048 ![] bcast_S_S2048x8x2048 main_cst_2
  let main_v11 : IVec S2048x8x2048 1 := cmpf .olt main_v9 main_v10
  let main_c_3 : IVec S_ 1 := constantI S_ 1 1#1
  let main_v12 : IVec S_ 1 := (fun x v => Host.reduce IntOp.andi x v reducesTo_S2048x8x2048_S_d0_1_2 h_S_) main_v11 main_c_3
  let main_v13 : IVec S_ 1 := andi main_v8 main_v12
  let main_v14 : FVec F S2048x2048 .f32 := Host.absf main_arg5
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg6 main_arg7 main_arg8 main_arg9 main_arg10 main_v13 main_v16
-- ==== Kernel.lean ====
abbrev S2048x8x2048 : Shape := ⟨3, ![2048, 8, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S128x2048 : Shape := ⟨2, ![128, 2048]⟩

abbrev nBuf : Space → Nat
  | .hbm => 25
  | .vmem => 14
  | .smem => 0
  | _ => 0

abbrev bufTy : (tb : Table) → Fin (tcTables nBuf tb) → BufTy
  | .hbm, ⟨0, _⟩ => ⟨S2048x8x2048, .f32⟩
  | .hbm, ⟨1, _⟩ => ⟨S2048x8x2048, .f32⟩
  | .hbm, ⟨2, _⟩ => ⟨S2048x8x2048, .f32⟩
  | .hbm, ⟨3, _⟩ => ⟨S8x2048, .i1⟩
  | .hbm, ⟨4, _⟩ => ⟨S8, .i32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S2048x2048, .bf16⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S16384x2048, .f32⟩
  | .hbm, ⟨24, _⟩ => ⟨S2048x8x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S2048x2048, .bf16⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | _, _ => ⟨S2048x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2048x8x2048_S16384x2048 : S2048x8x2048.ShapeCasts S16384x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S16384x2048_S2048x8x2048 : S16384x2048.ShapeCasts S2048x8x2048
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S16384x2048.size a
  hwx0_1 : ∀ i : grid0.Coords, EltTy.bits .f32 = 32 ∨ (Rect.block (s := S16384x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S16384x2048.size a
  hwx0_2 : ∀ i : grid0.Coords, EltTy.bits .f32 = 32 ∨ (Rect.block (s := S16384x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S16384x2048.size a
  hwx0_9 : ∀ i : grid0.Coords, EltTy.bits .f32 = 32 ∨ (Rect.block (s := S16384x2048) S128x2048.size (cc0_transform_9 i) (hinb0_9 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S128x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x8x2048 : Shape := ⟨3, ![2048, 8, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x8x2048, .f32⟩
  | .hbm, ⟨1, _⟩ => ⟨S2048x8x2048, .f32⟩
  | .hbm, ⟨2, _⟩ => ⟨S2048x8x2048, .f32⟩
  | .hbm, ⟨3, _⟩ => ⟨S8x2048, .i1⟩
  | .hbm, ⟨4, _⟩ => ⟨S8, .i32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x8x2048, .f32⟩
  | .hbm, ⟨12, _⟩ => ⟨S1x1x2048, .f32⟩
  | .hbm, ⟨13, _⟩ => ⟨S2048x8x2048, .f32⟩
  | .hbm, ⟨14, _⟩ => ⟨S2048x8x2048, .f32⟩
  | .hbm, ⟨15, _⟩ => ⟨S2048x8x2048, .f32⟩
  | .hbm, ⟨16, _⟩ => ⟨S2048x8x2048, .f32⟩
  | .hbm, ⟨17, _⟩ => ⟨S1x1x2048, .f32⟩
  | .hbm, ⟨18, _⟩ => ⟨S2048x8x2048, .f32⟩
  | .hbm, ⟨19, _⟩ => ⟨S2048x8x2048, .f32⟩
  | .hbm, ⟨20, _⟩ => ⟨S2048x8x2048, .f32⟩
  | .hbm, ⟨21, _⟩ => ⟨S2048x8x2048, .f32⟩
  | .hbm, ⟨22, _⟩ => ⟨S1x1x2048, .f32⟩
  | .hbm, ⟨23, _⟩ => ⟨S2048x8x2048, .f32⟩
  | .hbm, ⟨24, _⟩ => ⟨S2048x8x2048, .f32⟩
  | .hbm, ⟨25, _⟩ => ⟨S2048x8x2048, .f32⟩
  | .hbm, ⟨26, _⟩ => ⟨S2048x8x2048, .f32⟩
  | .hbm, ⟨27, _⟩ => ⟨S_, .f32⟩
  | .hbm, ⟨28, _⟩ => ⟨S2048x8x2048, .f32⟩
  | .hbm, ⟨29, _⟩ => ⟨S2048x8x2048, .f32⟩
  | .hbm, ⟨30, _⟩ => ⟨S_, .f32⟩
  | .hbm, ⟨31, _⟩ => ⟨S2048x8x2048, .f32⟩
  | .hbm, ⟨32, _⟩ => ⟨S2048x8x2048, .f32⟩
  | .hbm, ⟨33, _⟩ => ⟨S2048x8x2048, .f32⟩
  | _, _ => ⟨S2048x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S2048x8x2048_0_1_2 : S1x1x2048.BroadcastsInDim S2048x8x2048 (![0, 1, 2] : Fin 3 → Fin S2048x8x2048.rank)
  bcast_S_S2048x8x2048 : S_.BroadcastsInDim S2048x8x2048 (![] : Fin 0 → Fin S2048x8x2048.rank)
  dot_S2048x8x2048_S2048x2048_S2048x8x2048_2_1_01_0_n_n_wf : DotDims.WF S2048x8x2048 S2048x2048 S2048x8x2048 [2] [1] [0, 1] [0] [] []

variable [Facts₀]

def dot_S2048x8x2048_S2048x2048_S2048x8x2048_2_1_01_0_n_n : DotDims S2048x8x2048 S2048x2048 S2048x8x2048 where
  lhsContracting := [2]
  rhsContracting := [1]
  lhsNonContracting := [0, 1]
  rhsNonContracting := [0]
  lhsBatch := []
  rhsBatch := []
  wf := dot_S2048x8x2048_S2048x2048_S2048x8x2048_2_1_01_0_n_n_wf

class Facts : Prop extends Facts₀ where

variable [Facts]
-- ==== Proof.Spec.lean ====
/-
  The function both programs compute, one output element at a time, on the extended reals.

  A row of the flattened activations is a pair of vectors `l`, `x` of length 2048 (a row of the layer input and of
  `x`). With weight matrices `A`, `B` (contraction index first) and bias rows `r1`, `r2` the hidden unit `d` of that
  row is

      hidden d = tanh (((∑ₖ l k · A k d) + r1 d) + (∑ₖ x k · B k d) + r2 d),

  grouped exactly so (the sums first, each bias added right after the product it follows), and with a third matrix
  `C`, bias row `r3` and the position-embedding entry `pe` the output entry `q` of the row is

      cell q = logistic ((∑_d hidden d · C d q) + r3 q) · pe.

  Nothing here is rounded and nothing is reassociated: both programs will be shown to compute `cell` of the same
  rows of the same argument arrays, so no algebraic law of the extended reals — and no finiteness of the inputs — is
  needed to join them.
-/
import Idealize.ShloMosaic.PureOps.Ideal
import Idealize.ShloMosaic.Lib.ValueIdx

noncomputable section

namespace Cert.Reorder

open Idealize.ShloMosaic Idealize.ShloMosaic.ValueIdx

/-- Hidden unit `d` of one row: the two projections of the row, each followed by its bias, under `tanh`. -/
def hidden (l x : Fin 2048 → EReal) (A B : Fin 2048 → Fin 2048 → EReal) (r1 r2 : Fin 2048 → EReal) (d : Fin 2048) : EReal :=
  Ideal.tanh ((((∑ k : Fin 2048, l k * A k d) + r1 d) + ∑ k : Fin 2048, x k * B k d) + r2 d)

/-- Output entry `q` of one row: the gate `logistic (hidden · C + r3)` times the position embedding's entry. -/
def cell (l x : Fin 2048 → EReal) (A B : Fin 2048 → Fin 2048 → EReal) (r1 r2 : Fin 2048 → EReal)
    (C : Fin 2048 → Fin 2048 → EReal) (r3 : Fin 2048 → EReal) (pe : EReal) (q : Fin 2048) : EReal :=
  Ideal.logistic ((∑ d : Fin 2048, hidden l x A B r1 r2 d * C d q) + r3 q) * pe

/-- The whole result, of shape [2048, 8, 2048], as a function of the eleven argument arrays' float members: entry
    `(s, b, e)` is `cell e` of row `(s, b)` of the layer input `li` and of `x`, the weights read TRANSPOSED
    (`W[e, d]` multiplies input feature `d` into output feature `e`), against entry `(s, b, e)` of the position
    embedding. -/
def result (x li pe : (⟨3, ![2048, 8, 2048]⟩ : Shape).Idx → EReal) (W1 : (⟨2, ![2048, 2048]⟩ : Shape).Idx → EReal)
    (b1 : (⟨1, ![2048]⟩ : Shape).Idx → EReal) (W2 : (⟨2, ![2048, 2048]⟩ : Shape).Idx → EReal)
    (b2 : (⟨1, ![2048]⟩ : Shape).Idx → EReal) (V : (⟨2, ![2048, 2048]⟩ : Shape).Idx → EReal)
    (bV : (⟨1, ![2048]⟩ : Shape).Idx → EReal) : (⟨3, ![2048, 8, 2048]⟩ : Shape).Idx → EReal := fun i =>
  cell (fun k => li (ix3 (i 0) (i 1) k)) (fun k => x (ix3 (i 0) (i 1) k)) (fun k d => W1 (ix2 d k)) (fun k d => W2 (ix2 d k))
    (fun d => b1 (ix1 d)) (fun d => b2 (ix1 d)) (fun d q => V (ix2 q d)) (fun q => bV (ix1 q)) (pe i) (i 2)

end Cert.Reorder

end
-- ==== Proof.RefValue.lean ====
/-
  The reference computes `Cert.Reorder.result`.

  The reference's three `einsum('sbd,ed->sbe')` are `dot_general`s contracting the last axis of the activations with
  the LAST axis of the weight, so entry `(s, b, e)` is `∑ₖ act (s, b, k) · W (e, k)`: the weight read transposed. Each
  bias is broadcast along the last axis. `jax.nn.sigmoid` arrives spelt out as `1 / (1 + exp (-z))`, which on the
  extended reals is the definition of `logistic`, at the infinities too. Read at an index `(s, b, e)`, operation by
  operation, the reference's term is therefore `cell e` of row `(s, b)` — literally, with no rearrangement.
-/
import proofs.«161790_j46591805227609_1_alg».proof.Proof.Gen.ReferenceIdeal.Read
import proofs.«161790_j46591805227609_1_alg».proof.Proof.Spec
import Idealize.ShloMosaic.PureOps.IdealRules

noncomputable section

namespace Cert.Reorder.Ref

open Cert.ReferenceIdeal Cert.ReferenceIdeal.Read Idealize.ShloMosaic Idealize.ShloMosaic.ValueIdx

/-- The word `0x3F800000` is the real number one. -/
theorem one_f32 : Ideal.ofBits .f32 0x3F800000#32 = 1 := IdealRules.sign_bit.ideal_onePat .f32

/-! The operand indices the reference's operations read, at an output index written by coordinates. -/

theorem hid_row (s : Fin 2048) (b : Fin 8) (e d : Fin 2048) : lidx_main_v10 (ix3 s b e) d = ix3 s b d :=
  funext fun a => match a with | ⟨0, _⟩ => rfl | ⟨1, _⟩ => rfl | ⟨2, _⟩ => rfl
theorem v_entry (s : Fin 2048) (b : Fin 8) (e d : Fin 2048) : ridx_main_v10 (ix3 s b e) d = ix2 e d :=
  funext fun a => match a with | ⟨0, _⟩ => rfl | ⟨1, _⟩ => rfl
theorem li_row (s : Fin 2048) (b : Fin 8) (d k : Fin 2048) : lidx_main_v0 (ix3 s b d) k = ix3 s b k :=
  funext fun a => match a with | ⟨0, _⟩ => rfl | ⟨1, _⟩ => rfl | ⟨2, _⟩ => rfl
theorem w1_entry (s : Fin 2048) (b : Fin 8) (d k : Fin 2048) : ridx_main_v0 (ix3 s b d) k = ix2 d k :=
  funext fun a => match a with | ⟨0, _⟩ => rfl | ⟨1, _⟩ => rfl
theorem x_row (s : Fin 2048) (b : Fin 8) (d k : Fin 2048) : lidx_main_v4 (ix3 s b d) k = ix3 s b k :=
  funext fun a => match a with | ⟨0, _⟩ => rfl | ⟨1, _⟩ => rfl | ⟨2, _⟩ => rfl
theorem w2_entry (s : Fin 2048) (b : Fin 8) (d k : Fin 2048) : ridx_main_v4 (ix3 s b d) k = ix2 d k :=
  funext fun a => match a with | ⟨0, _⟩ => rfl | ⟨1, _⟩ => rfl
theorem b1_entry (s : Fin 2048) (b : Fin 8) (d : Fin 2048) : idx_main_v1 (idx_main_v2 (ix3 s b d)) = ix1 d :=
  funext fun a => match a with | ⟨0, _⟩ => rfl
theorem b2_entry (s : Fin 2048) (b : Fin 8) (d : Fin 2048) : idx_main_v6 (idx_main_v7 (ix3 s b d)) = ix1 d :=
  funext fun a => match a with | ⟨0, _⟩ => rfl
theorem bv_entry (s : Fin 2048) (b : Fin 8) (e : Fin 2048) : idx_main_v11 (idx_main_v12 (ix3 s b e)) = ix1 e :=
  funext fun a => match a with | ⟨0, _⟩ => rfl

/-- The reference's last stage, as a function of the argument arrays, is `result` of them. -/
theorem ref_is_result (x0 x1 x2 : (⟨S2048x8x2048, .f32⟩ : BufTy).Contents (Elt Ideal)) (x5 : (⟨S2048x2048, .f32⟩ : BufTy).Contents (Elt Ideal))
    (x6 : (⟨S2048, .f32⟩ : BufTy).Contents (Elt Ideal)) (x7 : (⟨S2048x2048, .f32⟩ : BufTy).Contents (Elt Ideal))
    (x8 : (⟨S2048, .f32⟩ : BufTy).Contents (Elt Ideal)) (x9 : (⟨S2048x2048, .f32⟩ : BufTy).Contents (Elt Ideal))
    (x10 : (⟨S2048, .f32⟩ : BufTy).Contents (Elt Ideal)) :
    val_main_v20 (F := Ideal) x0 x1 x2 x5 x6 x7 x8 x9 x10 = result x0 x1 x2 x5 x6 x7 x8 x9 x10 := by
  funext i
  obtain ⟨s, b, e, rfl⟩ : ∃ (s : Fin 2048) (b : Fin 8) (e : Fin 2048), i = ix3 s b e := ⟨i 0, i 1, i 2, eq_ix3 i⟩
  rw [val_main_v20_apply, val_main_v19_apply, val_main_v18_apply, val_main_cst_0_apply, val_main_v17_apply,
    val_main_v16_apply, val_main_cst_apply, val_main_v15_apply, val_main_v14_apply, val_main_v13_apply,
    val_main_v10_apply, val_main_v12_apply, val_main_v11_apply, bv_entry]
  simp only [hid_row, v_entry, val_main_v9_apply, val_main_v8_apply, val_main_v7_apply, val_main_v6_apply, b2_entry,
    val_main_v5_apply, val_main_v4_apply, x_row, w2_entry, val_main_v3_apply, val_main_v2_apply, val_main_v1_apply,
    b1_entry, val_main_v0_apply, li_row, w1_entry]
  simp only [Ideal.hostDivf_def, Ideal.addf_def, Ideal.hostUnary_exp_def, Ideal.hostNegf_def, Ideal.negf_def,
    Ideal.hostUnary_tanh_def, Ideal.mulf_def, Ideal.ofBits_def, one_f32]
  rfl

end Cert.Reorder.Ref

end
-- ==== Proof.KernelCell.lean ====
/-
  One entry of what the kernel body stores, as `Cert.Reorder.cell` of the rows it loaded.

  At a grid point the body holds a [128, 2048] tile of the layer input, of `x` and of the position embedding, the three
  weight matrices whole (already transposed on the host: contraction index first) and the three bias rows as [1, 2048]
  arrays. A `tpu.matmul` into the zero accumulator is, at entry `(p, q)`, the sum over the contraction index `k` of
  `lhs (p, k) · rhs (k, q)`; the changes of float format are the identity on the extended reals; a bias row is
  broadcast down the tile's rows. So entry `(p, q)` of the stored tile is `cell q` of row `p` of the two activation tiles
  — the same grouping of the additions as the specification has, none moved.
-/
import proofs.«161790_j46591805227609_1_alg».proof.Proof.Gen.KernelIdeal.Skeleton
import proofs.«161790_j46591805227609_1_alg».proof.Proof.Spec
import Idealize.ShloMosaic.Lib.ValueLayout
import Idealize.ShloMosaic.PureOps.Ideal.Laws

noncomputable section

namespace Cert.Reorder.Ker

open Cert.KernelIdeal Cert.KernelIdeal.Gen Idealize.ShloMosaic Idealize.ShloMosaic.ValueIdx

/-! The operand indices of the body's matrix product (rows × contraction times contraction × columns). -/

theorem lhs_row (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_contr (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhs_contr (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhs_col (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The body's matrix product into the zero accumulator, at entry `(p, q)`: `∑ₖ lhs (p, k) · rhs (k, q)`. -/
theorem tile_product {φ₁ φ₂ : FTy} (l : FVec Ideal S128x2048 φ₁) (r : FVec Ideal S2048x2048 φ₂) (p : Fin 128) (q : Fin 2048) :
    matmul dot_S128x2048_S2048x2048_S128x2048_1_0_0_1_n_n none l r (constant (F := Ideal) S128x2048 .f32 0x00000000#32) (ix2 p q)
      = ∑ k : Fin 2048, l (ix2 p k) * r (ix2 k q) := by
  simp only [matmul]
  rw [Ideal.matmul_constant_zero_apply, ← Equiv.sum_comp (ValueIdx.contrEquiv1 dot_S128x2048_S2048x2048_S128x2048_1_0_0_1_n_n 2048 rfl rfl).symm]
  refine Finset.sum_congr rfl fun k _ => ?_
  have hk := ValueIdx.contrEquiv1_symm_val dot_S128x2048_S2048x2048_S128x2048_1_0_0_1_n_n 2048 rfl rfl k
  have el : dot_S128x2048_S2048x2048_S128x2048_1_0_0_1_n_n.lhsIdx (ix2 p q) ((ValueIdx.contrEquiv1 dot_S128x2048_S2048x2048_S128x2048_1_0_0_1_n_n 2048 rfl rfl).symm k) = ix2 p k := funext fun a => Fin.ext (by
    match a with
    | ⟨0, _⟩ => exact lhs_row _ _
    | ⟨1, _⟩ => exact (lhs_contr _ _).trans hk)
  have er : dot_S128x2048_S2048x2048_S128x2048_1_0_0_1_n_n.rhsIdx (ix2 p q) ((ValueIdx.contrEquiv1 dot_S128x2048_S2048x2048_S128x2048_1_0_0_1_n_n 2048 rfl rfl).symm k) = ix2 k q := funext fun a => Fin.ext (by
    match a with
    | ⟨0, _⟩ => exact (rhs_contr _ _).trans hk
    | ⟨1, _⟩ => exact rhs_col _ _)
  rw [el, er]

/-- The lane-wise operations the body applies, read at an index. -/
theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- Entry `(p, q)` of the tile the body stores is `cell q` of row `p` of the loaded activation tiles, the loaded
    matrices as they are (contraction index first) and the loaded bias rows. -/
theorem stored_entry (v0 v3 : Vec Ideal S128x2048 .f32) (v6 v9 : Vec Ideal S2048x2048 .bf16) (v12 v17 : Vec Ideal S1x2048 .f32)
    (v23 : Vec Ideal S2048x2048 .bf16) (v26 : Vec Ideal S1x2048 .f32) (v31 : Vec Ideal S128x2048 .f32) (p : Fin 128) (q : Fin 2048) :
    k0_pay1 (F := Ideal) v0 v3 v6 v9 v12 v17 v23 v26 v31 (ix2 p q)
      = cell (fun k => v0 (ix2 p k)) (fun k => v3 (ix2 p k)) (fun k d => v6 (ix2 k d)) (fun k d => v9 (ix2 k d))
          (fun d => v12 (ix2 (0 : Fin 1) d)) (fun d => v17 (ix2 (0 : Fin 1) d)) (fun d e => v23 (ix2 d e))
          (fun e => v26 (ix2 (0 : Fin 1) e)) (v31 (ix2 p q)) q := by
  unfold k0_pay1
  simp only [mulf_apply, logistic_at, addf_apply, tile_product, tanh_at, truncf_apply, shapeCast_self, broadcastTo_1b_ab_apply]
  rfl

end Cert.Reorder.Ker

end
-- ==== Proof.RegionValue.lean ====
/-
  What the kernel region leaves in its output array, as one function of the arrays the region finds.

  The grid has 128 points; point `t` is handed rows `128 t … 128 t + 127` of the three [16384, 2048] activation arrays
  (block index `(t, 0)`), the three weight matrices and the three bias rows whole (block index `(0, 0)` at every point),
  and writes back rows `128 t … 128 t + 127` of the output. Entry `(p, q)` of the written tile is `cell q` of row
  `128 t + p` (the stored entry of the body, read through the blocks), so the tile is the restriction to those rows of
  `tiles`: row `r`, column `q` ↦ `cell q` of row `r`. The 128 row blocks tile the output (row `r` lies in block `r / 128`),
  so the output array ends holding `tiles` of the arrays at the region's entry.
-/
import proofs.«161790_j46591805227609_1_alg».proof.Proof.Gen.KernelIdeal.Frame
import proofs.«161790_j46591805227609_1_alg».proof.Proof.KernelCell
import Idealize.ShloMosaic.Lib.Pipeline.Value

noncomputable section

open Idealize.ShloMosaic Idealize.ShloMosaic.TcCoe Idealize.SL.Sem
open Idealize.ShloMosaic.Pipeline (Dat)

namespace Cert.Reorder.Ker

open Cert.KernelIdeal Cert.KernelIdeal.Gen Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- Row `r`, column `q` of the region's output: `cell q` of row `r` of the flattened activations `L`, `X`, the matrices
    `A`, `B`, `C` (contraction index first), the bias rows `r1`, `r2`, `r3` and entry `(r, q)` of `P`. -/
def tiles (L X P : S16384x2048.Idx → EReal) (A : S2048x2048.Idx → EReal) (r1 : S1x2048.Idx → EReal)
    (B : S2048x2048.Idx → EReal) (r2 : S1x2048.Idx → EReal) (C : S2048x2048.Idx → EReal) (r3 : S1x2048.Idx → EReal) :
    S16384x2048.Idx → EReal := fun i =>
  cell (fun k => L (ix2 (i 0) k)) (fun k => X (ix2 (i 0) k)) (fun k d => A (ix2 k d)) (fun k d => B (ix2 k d))
    (fun d => r1 (ix2 (0 : Fin 1) d)) (fun d => r2 (ix2 (0 : Fin 1) d)) (fun d e => C (ix2 d e))
    (fun e => r3 (ix2 (0 : Fin 1) e)) (P i) (i 1)

/-- The block indices, decided over the grid: the activation and output windows are at `(t, 0)`, the rest at `(0, 0)`. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! The input blocks read through their windows. -/

/-- The layer-input tile at point `t`: its entry `y` is the array's at row `128 t + y₀`, column `y₁`. -/
theorem li_tile (c : Dev nD) (t : Fin cfg0.N) (y : S128x2048.Idx) (i : S16384x2048.Idx)
    (h0 : (i 0).val = t.val * 128 + (y 0).val) (h1 : (i 1).val = (y 1).val) :
    (iblk m c 0 t : Vec Ideal S128x2048 .f32) y = (V m c main_v1 : S16384x2048.Idx → EReal) i := by
  obtain ⟨⟨e0, e1⟩, -⟩ := block_index t
  unfold iblk
  rw [View.read_apply]
  show V m c main_v1 _ = V m c main_v1 _
  refine congrArg _ (funext fun a => Fin.ext ?_)
  match a with
  | ⟨0, _⟩ => show win0_0.index t (0 : Fin 2) * 128 + 1 * (y 0).val = (i 0).val; rw [e0, h0]; omega
  | ⟨1, _⟩ => show win0_0.index t (1 : Fin 2) * 2048 + 1 * (y 1).val = (i 1).val; rw [e1, h1]; omega

/-- The `x` tile at point `t`, likewise. -/
theorem x_tile (c : Dev nD) (t : Fin cfg0.N) (y : S128x2048.Idx) (i : S16384x2048.Idx)
    (h0 : (i 0).val = t.val * 128 + (y 0).val) (h1 : (i 1).val = (y 1).val) :
    (iblk m c 1 t : Vec Ideal S128x2048 .f32) y = (V m c main_v0 : S16384x2048.Idx → EReal) i := by
  obtain ⟨-, ⟨e0, e1⟩, -⟩ := block_index t
  unfold iblk
  rw [View.read_apply]
  show V m c main_v0 _ = V m c main_v0 _
  refine congrArg _ (funext fun a => Fin.ext ?_)
  match a with
  | ⟨0, _⟩ => show win0_1.index t (0 : Fin 2) * 128 + 1 * (y 0).val = (i 0).val; rw [e0, h0]; omega
  | ⟨1, _⟩ => show win0_1.index t (1 : Fin 2) * 2048 + 1 * (y 1).val = (i 1).val; rw [e1, h1]; omega

/-- The position-embedding tile at point `t`, likewise. -/
theorem pe_tile (c : Dev nD) (t : Fin cfg0.N) (y : S128x2048.Idx) (i : S16384x2048.Idx)
    (h0 : (i 0).val = t.val * 128 + (y 0).val) (h1 : (i 1).val = (y 1).val) :
    (iblk m c 2 t : Vec Ideal S128x2048 .f32) y = (V m c main_v2 : S16384x2048.Idx → EReal) i := by
  obtain ⟨-, -, ⟨e0, e1⟩, -⟩ := block_index t
  unfold iblk
  rw [View.read_apply]
  show V m c main_v2 _ = V m c main_v2 _
  refine congrArg _ (funext fun a => Fin.ext ?_)
  match a with
  | ⟨0, _⟩ => show win0_2.index t (0 : Fin 2) * 128 + 1 * (y 0).val = (i 0).val; rw [e0, h0]; omega
  | ⟨1, _⟩ => show win0_2.index t (1 : Fin 2) * 2048 + 1 * (y 1).val = (i 1).val; rw [e1, h1]; omega

/-- A window whose one block is its whole array hands the body that array, at every point. -/
theorem w1_whole (c : Dev nD) (t : Fin cfg0.N) : (iblk m c 3 t : Vec Ideal S2048x2048 .bf16) = V m c main_v4 := by
  obtain ⟨-, -, -, ⟨e0, e1⟩, -⟩ := block_index t
  funext y
  unfold iblk
  rw [View.read_apply]
  show V m c main_v4 _ = V m c main_v4 _
  refine congrArg _ (funext fun a => Fin.ext ?_)
  match a with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega
theorem b1_whole (c : Dev nD) (t : Fin cfg0.N) : (iblk m c 4 t : Vec Ideal S1x2048 .f32) = V m c main_v9 := by
  obtain ⟨-, -, -, -, ⟨e0, e1⟩, -⟩ := block_index t
  funext y
  unfold iblk
  rw [View.read_apply]
  show V m c main_v9 _ = V m c main_v9 _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 2048 + 1 * (y 1).val = (y 1).val; rw [e1]; omega
theorem w2_whole (c : Dev nD) (t : Fin cfg0.N) : (iblk m c 5 t : Vec Ideal S2048x2048 .bf16) = V m c main_v6 := by
  obtain ⟨-, -, -, -, -, ⟨e0, e1⟩, -⟩ := block_index t
  funext y
  unfold iblk
  rw [View.read_apply]
  show V m c main_v6 _ = V m c main_v6 _
  refine congrArg _ (funext fun a => Fin.ext ?_)
  match a with
  | ⟨0, _⟩ => show win0_5.index t (0 : Fin 2) * 2048 + 1 * (y 0).val = (y 0).val; rw [e0]; omega
  | ⟨1, _⟩ => show win0_5.index t (1 : Fin 2) * 2048 + 1 * (y 1).val = (y 1).val; rw [e1]; omega
theorem b2_whole (c : Dev nD) (t : Fin cfg0.N) : (iblk m c 6 t : Vec Ideal S1x2048 .f32) = V m c main_v10 := by
  obtain ⟨-, -, -, -, -, -, ⟨e0, e1⟩, -⟩ := block_index t
  funext y
  unfold iblk
  rw [View.read_apply]
  show V m c main_v10 _ = V m c main_v10 _
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 2048 + 1 * (y 1).val = (y 1).val; rw [e1]; omega
theorem v_whole (c : Dev nD) (t : Fin cfg0.N) : (iblk m c 7 t : Vec Ideal S2048x2048 .bf16) = V m c main_v8 := by
  obtain ⟨-, -, -, -, -, -, -, ⟨e0, e1⟩, -⟩ := block_index t
  funext y
  unfold iblk
  rw [View.read_apply]
  show V m c main_v8 _ = V m c main_v8 _
  refine congrArg _ (funext fun a => Fin.ext ?_)
  match a with
  | ⟨0, _⟩ => show win0_7.index t (0 : Fin 2) * 2048 + 1 * (y 0).val = (y 0).val; rw [e0]; omega
  | ⟨1, _⟩ => show win0_7.index t (1 : Fin 2) * 2048 + 1 * (y 1).val = (y 1).val; rw [e1]; omega
theorem bv_whole (c : Dev nD) (t : Fin cfg0.N) : (iblk m c 8 t : Vec Ideal S1x2048 .f32) = V m c main_v11 := by
  obtain ⟨-, -, -, -, -, -, -, -, ⟨e0, e1⟩, -⟩ := block_index t
  funext y
  unfold iblk
  rw [View.read_apply]
  show V m c main_v11 _ = V m c main_v11 _
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 2048 + 1 * (y 1).val = (y 1).val; rw [e1]; omega

/-- Entry `y` of the tile stored from activation tiles that are rows `i₀ - y₀ …` of arrays `L`, `X`, `P` is `tiles` at
    the array index `i` (same column). -/
theorem tile_entry (x0 x1 x2 : Vec Ideal S128x2048 .f32) (A : Vec Ideal S2048x2048 .bf16) (r1 : Vec Ideal S1x2048 .f32)
    (B : Vec Ideal S2048x2048 .bf16) (r2 : Vec Ideal S1x2048 .f32) (C : Vec Ideal S2048x2048 .bf16) (r3 : Vec Ideal S1x2048 .f32)
    (L X P : S16384x2048.Idx → EReal) (y : S128x2048.Idx) (i : S16384x2048.Idx)
    (hL : ∀ k : Fin 2048, x0 (ix2 (y 0) k) = L (ix2 (i 0) k)) (hX : ∀ k : Fin 2048, x1 (ix2 (y 0) k) = X (ix2 (i 0) k))
    (hP : x2 y = P i) (hq : y 1 = i 1) :
    k0_pay1 (F := Ideal) x0 x1 A B r1 r2 C r3 x2 y = tiles L X P A r1 B r2 C r3 i := by
  obtain ⟨p, q, rfl⟩ : ∃ (p : Fin 128) (q : Fin 2048), y = ix2 p q := ⟨y 0, y 1, eq_ix2 y⟩
  rw [stored_entry]
  unfold tiles
  have hq' : q = i 1 := hq
  have hL' : (fun k : Fin 2048 => x0 (ix2 p k)) = fun k => L (ix2 (i 0) k) := funext hL
  have hX' : (fun k : Fin 2048 => x1 (ix2 p k)) = fun k => X (ix2 (i 0) k) := funext hX
  rw [hL', hX', hP, hq']

/-- WHAT POINT `t` WRITES BACK is block `t` of `tiles` of the arrays as the region finds them. -/
theorem flushed_eq (c : Dev nD) (t : Fin cfg0.N) :
    (dats m 0 c).flushed 9 t = ((cfg0.win 9).blk t).view.read (Elt Ideal)
      (tiles (V m c main_v1) (V m c main_v0) (V m c main_v2) (V m c main_v4) (V m c main_v9) (V m c main_v6) (V m c main_v10) (V m c main_v8) (V m c main_v11)) := by
  show (cfg0.win 9).cut (grid0.coords t) ((dats m 0 c).after 9 t) = _
  rw [after0_9]
  unfold out0_9
  rw [View.canon_unit_zero zero_offsets]
  simp only [View.ld_unit_zero (S := S128x2048) zero_offsets, View.ld_unit_zero (S := S2048x2048) zero_offsets, View.ld_unit_zero (S := S1x2048) zero_offsets]
  rw [w1_whole, b1_whole, w2_whole, b2_whole, v_whole, bv_whole]
  obtain ⟨-, -, -, -, -, -, -, -, -, e0, e1⟩ := block_index t
  funext j
  have hj0 : (j 0).val < 128 := (j 0).isLt
  have hj1 : (j 1).val < 2048 := (j 1).isLt
  have he0 : ((((cfg0.win 9).blk t).view.emb j) 0).val = t.val * 128 + (j 0).val := by
    show win0_9.index t (0 : Fin 2) * 128 + 1 * (j 0).val = _; rw [e0]; omega
  have he1 : ((((cfg0.win 9).blk t).view.emb j) 1).val = (j 1).val := by
    show win0_9.index t (1 : Fin 2) * 2048 + 1 * (j 1).val = _; rw [e1]; omega
  refine tile_entry (iblk m c 0 t) (iblk m c 1 t) (iblk m c 2 t) (V m c main_v4) (V m c main_v9) (V m c main_v6) (V m c main_v10) (V m c main_v8) (V m c main_v11)
    (V m c main_v1) (V m c main_v0) (V m c main_v2) j (((cfg0.win 9).blk t).view.emb j) (fun k => ?_) (fun k => ?_) ?_ (Fin.ext he1.symm)
  · exact li_tile m c t _ _ he0 rfl
  · exact x_tile m c t _ _ he0 rfl
  · exact pe_tile m c t _ _ he0 he1

/-- An index of the output array is in point `t`'s block iff its row is one of the block's 128. -/
theorem mem_block (t : Fin cfg0.N) (i : S16384x2048.Idx) :
    i ∈ ((cfg0.win 9).blk t).view.set ↔ ∀ a : Fin 2, win0_9.index t a * S128x2048.size a ≤ (i a).val ∧ (i a).val < win0_9.index t a * S128x2048.size a + S128x2048.size a := by
  show i ∈ ((View.whole main_v12).slice (win0_9.rect t)).set ↔ _
  rw [View.set_slice_whole, Rect.mem_set_unit]
  exact Iff.rfl

/-- THE OUTPUT ARRAY after the region: `tiles` of the arrays as the region finds them (the row blocks tile it). -/
theorem final (c : Dev nD) : (dats m 0 c).arrAt 9 cfg0.N
    = tiles (V m c main_v1) (V m c main_v0) (V m c main_v2) (V m c main_v4) (V m c main_v9) (V m c main_v6) (V m c main_v10) (V m c main_v8) (V m c main_v11) :=
  (dats m 0 c).arrAt_eq_of_cover 9 _ (fun t _ => flushed_eq m c t) fun i => by
    have hi0 : (i 0).val < 16384 := (i 0).isLt
    have hi1 : (i 1).val < 2048 := (i 1).isLt
    have hN : cfg0.N = 128 := N_0
    let t : Fin cfg0.N := ⟨(i 0).val / 128, by rw [hN]; omega⟩
    obtain ⟨-, -, -, -, -, -, -, -, -, e0, e1⟩ := block_index t
    refine ⟨t, flush0_9 t, ?_⟩
    rw [mem_block]
    intro a
    match a with
    | ⟨0, _⟩ => show win0_9.index t (0 : Fin 2) * 128 ≤ (i 0).val ∧ (i 0).val < win0_9.index t (0 : Fin 2) * 128 + 128; rw [e0]; show (i 0).val / 128 * 128 ≤ (i 0).val ∧ (i 0).val < (i 0).val / 128 * 128 + 128; omega
    | ⟨1, _⟩ => show win0_9.index t (1 : Fin 2) * 2048 ≤ (i 1).val ∧ (i 1).val < win0_9.index t (1 : Fin 2) * 2048 + 2048; rw [e1]; omega

end Cert.Reorder.Ker

end
-- ==== Proof.KernelValue.lean ====
/-
  The kernel program's result as `Cert.Reorder.result` of its arguments.

  Around the region the program only re-lays data. Before it: each [2048, 8, 2048] activation array is flattened to
  [16384, 2048] (row `8 s + b` of the flat array is row `(s, b)`), each weight matrix is transposed (so that the
  contraction index comes first) and converted to bf16 — the identity on the extended reals —, each bias vector becomes a
  [1, 2048] row. After it the [16384, 2048] output is reshaped back to [2048, 8, 2048]. Entry `(s, b, e)` of the result is
  therefore entry `(8 s + b, e)` of the region's output, which is `cell e` of row `8 s + b` of the flattened activations,
  that is of row `(s, b)` of the arguments, against the weights read transposed: `result`.
-/
import proofs.«161790_j46591805227609_1_alg».proof.Proof.RegionValue
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.Reorder.Ker

open Cert.KernelIdeal Cert.KernelIdeal.Gen Idealize.ShloMosaic.ValueIdx

variable (m : (ℓ : Loc nD τ sig) → Buf (Elt Ideal) ℓ) (ρ : Dev nD → PrngReg)

/-! ## The arrays the region finds, from the arguments -/

theorem li_flat (c : Dev nD) : V m c main_v1 = shapeCast S16384x2048 (m ((c : Thread nD τ).loc main_arg1)) shapeCasts_S2048x8x2048_S16384x2048 := by
  show StableHlo.after hostOps0 (fun b => m (c, b)) (Proc.devRef .tc main_v1) = _
  after_results
  rfl
theorem x_flat (c : Dev nD) : V m c main_v0 = shapeCast S16384x2048 (m ((c : Thread nD τ).loc main_arg0)) shapeCasts_S2048x8x2048_S16384x2048 := by
  show StableHlo.after hostOps0 (fun b => m (c, b)) (Proc.devRef .tc main_v0) = _
  after_results
  rfl
theorem pe_flat (c : Dev nD) : V m c main_v2 = shapeCast S16384x2048 (m ((c : Thread nD τ).loc main_arg2)) shapeCasts_S2048x8x2048_S16384x2048 := by
  show StableHlo.after hostOps0 (fun b => m (c, b)) (Proc.devRef .tc main_v2) = _
  after_results
  rfl
theorem w1_t (c : Dev nD) : V m c main_v4 = (truncf .bf16 (transpose S2048x2048 [1, 0] (m ((c : Thread nD τ).loc main_arg5) : FVec Ideal S2048x2048 .f32) transposes_S2048x2048_S2048x2048_1_0) bitsLt_bf16_f32 : FVec Ideal S2048x2048 .bf16) := by
  show StableHlo.after hostOps0 (fun b => m (c, b)) (Proc.devRef .tc main_v4) = _
  after_results
theorem w2_t (c : Dev nD) : V m c main_v6 = (truncf .bf16 (transpose S2048x2048 [1, 0] (m ((c : Thread nD τ).loc main_arg7) : FVec Ideal S2048x2048 .f32) transposes_S2048x2048_S2048x2048_1_0) bitsLt_bf16_f32 : FVec Ideal S2048x2048 .bf16) := by
  show StableHlo.after hostOps0 (fun b => m (c, b)) (Proc.devRef .tc main_v6) = _
  after_results
theorem v_t (c : Dev nD) : V m c main_v8 = (truncf .bf16 (transpose S2048x2048 [1, 0] (m ((c : Thread nD τ).loc main_arg9) : FVec Ideal S2048x2048 .f32) transposes_S2048x2048_S2048x2048_1_0) bitsLt_bf16_f32 : FVec Ideal S2048x2048 .bf16) := by
  show StableHlo.after hostOps0 (fun b => m (c, b)) (Proc.devRef .tc main_v8) = _
  after_results
theorem b1_row (c : Dev nD) : V m c main_v9 = shapeCast S1x2048 (m ((c : Thread nD τ).loc main_arg6)) shapeCasts_S2048_S1x2048 := by
  show StableHlo.after hostOps0 (fun b => m (c, b)) (Proc.devRef .tc main_v9) = _
  after_results
  rfl
theorem b2_row (c : Dev nD) : V m c main_v10 = shapeCast S1x2048 (m ((c : Thread nD τ).loc main_arg8)) shapeCasts_S2048_S1x2048 := by
  show StableHlo.after hostOps0 (fun b => m (c, b)) (Proc.devRef .tc main_v10) = _
  after_results
  rfl
theorem bv_row (c : Dev nD) : V m c main_v11 = shapeCast S1x2048 (m ((c : Thread nD τ).loc main_arg10)) shapeCasts_S2048_S1x2048 := by
  show StableHlo.after hostOps0 (fun b => m (c, b)) (Proc.devRef .tc main_v11) = _
  after_results
  rfl

/-! ## The line after the region -/

/-- The program's result buffer after the run: the region's output array reshaped to [2048, 8, 2048]. -/
theorem tail_eq (c : Dev nD) : Pipeline.afterTail₀ cfgs (dats m) 0 (V0 m) [hostOps1] c main_v13
    = shapeCast S2048x8x2048 ((dats m 0 c).arrAt 9 cfg0.N) shapeCasts_S16384x2048_S2048x8x2048 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12)
      = (dats m 0 c).arrAt 9 cfg0.N := Pipeline.withArrays_arr spec0 launch0.win.arr_inj c _ _ 9
  rw [e]
  rfl

/-! ## Flattening and unflattening read at an index -/

/-- Row `8 s + b` of a flattened activation array is row `(s, b)` of the array. -/
theorem flat_apply {α : Type} (a : S2048x8x2048.Idx → α) (h : S2048x8x2048.ShapeCasts S16384x2048) (s : Fin 2048) (b : Fin 8)
    (k : Fin 2048) (r : Fin 16384) (hr : r.val = s.val * 8 + b.val) : shapeCast S16384x2048 a h (ix2 r k) = a (ix3 s b k) :=
  shapeCast_apply a h _ _ (by
    rw [Shape.rowMajor_val_three, Shape.rowMajor_val_two]
    show (s.val * 8 + b.val) * 2048 + k.val = r.val * 2048 + k.val
    rw [hr])

/-- Entry `(s, b, e)` of the unflattened output is entry `(8 s + b, e)` of the flat one. -/
theorem unflat_apply {α : Type} (a : S16384x2048.Idx → α) (h : S16384x2048.ShapeCasts S2048x8x2048) (s : Fin 2048) (b : Fin 8)
    (e : Fin 2048) (r : Fin 16384) (hr : r.val = s.val * 8 + b.val) : shapeCast S2048x8x2048 a h (ix3 s b e) = a (ix2 r e) :=
  shapeCast_apply a h _ _ (by
    rw [Shape.rowMajor_val_three, Shape.rowMajor_val_two]
    show r.val * 2048 + e.val = (s.val * 8 + b.val) * 2048 + e.val
    rw [hr])

/-- A transposed weight matrix at `(k, d)` is the weight at `(d, k)`. -/
theorem weight_t {α : Type} (W : S2048x2048.Idx → α) (k d : Fin 2048) :
    transpose S2048x2048 [1, 0] W transposes_S2048x2048_S2048x2048_1_0 (ix2 k d) = W (ix2 d k) :=
  transpose_ix2_apply W transposes_S2048x2048_S2048x2048_1_0 k d

theorem tiles_apply (L X P : S16384x2048.Idx → EReal) (A : S2048x2048.Idx → EReal) (r1 : S1x2048.Idx → EReal)
    (B : S2048x2048.Idx → EReal) (r2 : S1x2048.Idx → EReal) (C : S2048x2048.Idx → EReal) (r3 : S1x2048.Idx → EReal)
    (r : Fin 16384) (q : Fin 2048) :
    tiles L X P A r1 B r2 C r3 (ix2 r q)
      = cell (fun k => L (ix2 r k)) (fun k => X (ix2 r k)) (fun k d => A (ix2 k d)) (fun k d => B (ix2 k d))
          (fun d => r1 (ix2 (0 : Fin 1) d)) (fun d => r2 (ix2 (0 : Fin 1) d)) (fun d e => C (ix2 d e))
          (fun e => r3 (ix2 (0 : Fin 1) e)) (P (ix2 r q)) q := rfl

theorem result_apply (x li pe : S2048x8x2048.Idx → EReal) (W1 : S2048x2048.Idx → EReal) (b1 : S2048.Idx → EReal)
    (W2 : S2048x2048.Idx → EReal) (b2 : S2048.Idx → EReal) (Vm : S2048x2048.Idx → EReal) (bV : S2048.Idx → EReal)
    (s : Fin 2048) (b : Fin 8) (e : Fin 2048) :
    result x li pe W1 b1 W2 b2 Vm bV (ix3 s b e)
      = cell (fun k => li (ix3 s b k)) (fun k => x (ix3 s b k)) (fun k d => W1 (ix2 d k)) (fun k d => W2 (ix2 d k))
          (fun d => b1 (ix1 d)) (fun d => b2 (ix1 d)) (fun d q => Vm (ix2 q d)) (fun q => bV (ix1 q)) (pe (ix3 s b e)) e := rfl

/-! ## The program's result -/

/-- THE RESULT BUFFER after the run is `result` of the argument arrays. -/
theorem value (c : Dev nD) : Pipeline.afterTail₀ cfgs (dats m) 0 (V0 m) [hostOps1] c main_v13
    = result (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  rw [tail_eq, final, li_flat, x_flat, pe_flat, w1_t, b1_row, w2_t, b2_row, v_t, bv_row]
  funext i
  obtain ⟨s, b, e, rfl⟩ : ∃ (s : Fin 2048) (b : Fin 8) (e : Fin 2048), i = ix3 s b e := ⟨i 0, i 1, i 2, eq_ix3 i⟩
  have hs : s.val < 2048 := s.isLt
  have hb : b.val < 8 := b.isLt
  rw [unflat_apply _ _ s b e ⟨s.val * 8 + b.val, by omega⟩ rfl, tiles_apply, result_apply]
  have t1 : ∀ k d : Fin 2048, transpose S2048x2048 [1, 0] (m ((c : Thread nD τ).loc main_arg5)) transposes_S2048x2048_S2048x2048_1_0 (ix2 k d)
      = m ((c : Thread nD τ).loc main_arg5) (ix2 d k) := fun k d => weight_t _ k d
  have t2 : ∀ k d : Fin 2048, transpose S2048x2048 [1, 0] (m ((c : Thread nD τ).loc main_arg7)) transposes_S2048x2048_S2048x2048_1_0 (ix2 k d)
      = m ((c : Thread nD τ).loc main_arg7) (ix2 d k) := fun k d => weight_t _ k d
  have t3 : ∀ k d : Fin 2048, transpose S2048x2048 [1, 0] (m ((c : Thread nD τ).loc main_arg9)) transposes_S2048x2048_S2048x2048_1_0 (ix2 k d)
      = m ((c : Thread nD τ).loc main_arg9) (ix2 d k) := fun k d => weight_t _ k d
  simp only [flat_apply _ _ s b _ ⟨s.val * 8 + b.val, by omega⟩ rfl, truncf_apply, shapeCast_a_1a_apply, t1, t2, t3]

/-- The run, read: the result buffer at `result` of the arguments, every argument array as launched. -/
theorem run : θ_run defs (onTc (τ := τ) (main (F := Ideal))) ⟨m, fun _ => 0, ρ⟩ fun r => ∀ c : Dev nD,
      r.2.mem ((c : Thread nD τ).loc main_v13)
        = result (m ((c : Thread nD τ).loc main_arg0)) (m ((c : Thread nD τ).loc main_arg1)) (m ((c : Thread nD τ).loc main_arg2))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c =>
      ⟨((h c).2 main_v13 (Pipeline.mem_restRefs_of main_v13 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.Reorder.Ker

end
-- ==== Proof.lean ====
/-
  The gated reordering layer: `sigmoid (tanh (li · W1ᵀ + b1 + x · W2ᵀ + b2) · Vᵀ + bV) ⊙ pe` over [2048, 8, 2048] arrays.

  The kernel flattens the two leading axes, walks the 16384 rows in 128 tiles of 128 rows, and per tile forms the three
  matrix products against weights transposed beforehand; the reference contracts the weights' last axis directly. On the
  extended reals every change of float format is the identity, a matrix product is the plain sum over the contraction
  index, and `logistic z` is by definition `1 / (1 + exp (-z))`, which is how the reference spells its sigmoid. Both
  programs add the two biases in the same places. So each computes, at `(s, b, e)`, the one expression
  `Cert.Reorder.cell` of row `(s, b)` — the specification (Proof/Spec.lean) — and the two results are equal term by term
  with no law of arithmetic invoked; the precondition (finite inputs) is not used.

  The pieces: the reference's stages read at an index (Proof/RefValue.lean); the tile the body stores (Proof/KernelCell.lean);
  the row tiles assembled into the region's output (Proof/RegionValue.lean); the re-layouts around the region and the
  kernel program's run (Proof/KernelValue.lean). The three frames are the programs' runs with the results dropped, and the
  idealization rewrote nothing, so `preserves` is `True`.
-/
import proofs.«161790_j46591805227609_1_alg».proof.Defs
import proofs.«161790_j46591805227609_1_alg».proof.Proof.Gen.Kernel
import proofs.«161790_j46591805227609_1_alg».proof.Proof.Gen.Kernel.Skeleton
import proofs.«161790_j46591805227609_1_alg».proof.Proof.Gen.Kernel.Launch
import proofs.«161790_j46591805227609_1_alg».proof.Proof.Gen.Kernel.Points
import proofs.«161790_j46591805227609_1_alg».proof.Proof.Gen.Kernel.Frame
import proofs.«161790_j46591805227609_1_alg».proof.Proof.Gen.KernelIdeal
import proofs.«161790_j46591805227609_1_alg».proof.Proof.Gen.KernelIdeal.Skeleton
import proofs.«161790_j46591805227609_1_alg».proof.Proof.Gen.KernelIdeal.Launch
import proofs.«161790_j46591805227609_1_alg».proof.Proof.Gen.KernelIdeal.Points
import proofs.«161790_j46591805227609_1_alg».proof.Proof.Gen.KernelIdeal.Frame
import proofs.«161790_j46591805227609_1_alg».proof.Proof.Gen.ReferenceIdeal
import proofs.«161790_j46591805227609_1_alg».proof.Proof.Gen.Pre_finite_inputs
import proofs.«161790_j46591805227609_1_alg».proof.Proof.Gen.ReferenceIdeal.Run
import proofs.«161790_j46591805227609_1_alg».proof.Proof.Gen.ReferenceIdeal.Read
import proofs.«161790_j46591805227609_1_alg».proof.Proof.RefValue
import proofs.«161790_j46591805227609_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with `result` of those arguments in their result
    buffers: the kernel by its run read through the region's tiles, the reference by its stages read at an index. -/
theorem algebraic : Cert.algebraic_KernelIdeal_ReferenceIdeal := by
  intro m ρ m' ρ' _ hagree
  refine ⟨_, Cert.Reorder.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, -, h5, h6, h7, h8, h9, h10⟩ := hagree c
  rw [Cert.ReferenceIdeal.Read.val_main_v20_eq, Cert.Reorder.Ref.ref_is_result, h0, h1, h2, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
